-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 512]⟩ ⟨2, ![1, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1x512 : Shape := ⟨2, ![1, 512]⟩
abbrev S_ : Shape := ⟨0, ![]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v19 : BitVec 32 := Scalar.muli v6 c2_i32_10
  let v20 : BitVec 32 := Scalar.addi c0_i32_11 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v21 : BitVec 32 := Scalar.muli v5 c1_i32_12
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.KernelProto.lean ====
/-
  The column mean over a 2 × 2 mesh: the cross-device protocol.

  Device `c` holds the block `(c / 2, c % 2)` of a 2048 × 1024 array. It adds up its 1024 rows into a row of 512
  partial sums, exchanges that row with the device across the mesh's first axis (`peer c`, the same column block,
  the other row block) and scales the two rows' sum by 1/2048. The exchange is an entry handshake on the runtime's
  barrier semaphore followed by one addressed copy with a send and a receive semaphore.

  Three cells a device, one duty each, all at round 0:
  * the barrier cell of `c`: one unit, paid by `peer c`'s signal, which hands `c` the landing row of `peer c`
    (at any contents) and that `peer c`'s receive cell is at round 0: what `c`'s copy into it needs;
  * the receive cell of `c`: the row's credit, paid by `peer c`'s copy, which hands `c` its landing row holding
    `peer c`'s partial sums;
  * the send cell of `c`: the row's credit, paid by `c`'s own copy, which hands back the half share of the
    partial-sum row the copy reads from (the other half stays with `c`, which reads the row while the copy is out).
  Levels: barrier cells below receive cells; a device waits on its barrier owing only the peer's receive credit.
-/
import proofs.«900568_g7700000000000569_dist_mean_ax0_xy_m1024_n512_v7x_xy2x2_f32_1_alg».proof.Proof.Gen.Kernel
import proofs.«900568_g7700000000000569_dist_mean_ax0_xy_m1024_n512_v7x_xy2x2_f32_1_alg».proof.Proof.Gen.Kernel.Skeleton
import proofs.«900568_g7700000000000569_dist_mean_ax0_xy_m1024_n512_v7x_xy2x2_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The peer: the device across the first mesh axis -/

/-- Device `c` sits at `(c / 2, c % 2)`; its peer at `(1 - c / 2, c % 2)`. -/
def peer (c : Dev nD) : Dev nD := ⟨(c.val % 2 + 2) - 2 * (c.val / 2), by have := c.isLt; revert this; generalize c.val = v; decide +revert⟩

theorem peer_peer (c : Dev nD) : peer (peer c) = c := by revert c; decide
theorem peer_ne (c : Dev nD) : peer c ≠ c := by revert c; decide
theorem peer_val (c : Dev nD) : (peer c).val = (c.val % 2 + 2) - 2 * (c.val / 2) := rfl

/-- Both of the kernel's device chains name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs and the cells -/

abbrev xM : Memref sig .tc .vmem S1024x512 .f32 := Memref.whole cc0_stg0_0
abbrev oM : Memref sig .tc .vmem S1x512 .f32 := Memref.whole cc0_stg1_0
/-- The row of partial sums (the copy's source) and the landing row (its destination). -/
abbrev aM : Memref sig .tc .vmem S1x512 .f32 := Memref.whole cc0_scratch0
abbrev bM : Memref sig .tc .vmem S1x512 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the protocol's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (bM : Memref sig .tc .vmem S1x512 .f32).view.dmaCredit
theorem N_pos : 0 < N := View.dmaCredit_pos _ (by decide)

/-! ## Contents -/

/-- Device `c`'s block of the argument array, as the pipeline stages it. -/
def xstg (c : Dev nD) : (cc0_stg0_0 : Ref sig .tc).ty.Contents (Elt F) :=
  (win0_0.blk (0 : Fin 1)).view.read (Elt F) (m ((c : Thread nD τ).loc main_arg0))

/-- Device `c`'s row of partial sums: its block's 1024 rows added up. -/
def rowSum (c : Dev nD) : (cc0_scratch0 : Ref sig .tc).ty.Contents (Elt F) := k0_pay2 (xstg m c)

/-- What lands on device `c`: its peer's row of partial sums. -/
def landed (c : Dev nD) : Buf (Elt F) ((bM : Memref sig .tc .vmem S1x512 .f32).view.loc (c : Thread nD τ)) := rowSum m (peer c)

/-- The result row of device `c`: the two rows' sum, scaled. -/
def outAt (c : Dev nD) : (cc0_stg1_0 : Ref sig .tc).ty.Contents (Elt F) := k0_pay1 (rowSum m c) (rowSum m (peer c))

omit [FloatOps F] in
/-- A whole row written over a whole row is the row written. -/
theorem landed_eq (c : Dev nD) (fd : Buf (Elt F) ((bM : Memref sig .tc .vmem S1x512 .f32).view.loc (c : Thread nD τ))) (fs : (cc0_scratch0 : Ref sig .tc).ty.Contents (Elt F)) :
    (bM : Memref sig .tc .vmem S1x512 .f32).view.write (Elt F) fd ((aM : Memref sig .tc .vmem S1x512 .f32).view.read (Elt F) fs) Finset.univ = fs := by
  show (View.whole cc0_scratch1).write (Elt F) fd ((View.whole cc0_scratch0).read (Elt F) fs) Finset.univ = fs
  rw [View.read_whole]
  exact View.write_whole_univ _ _ _

/-- The landing row of device `c` at contents `f`; the partial-sum row at a share. -/
def landPts (c : Dev nD) (f : Buf (Elt F) ((bM : Memref sig .tc .vmem S1x512 .f32).view.loc (c : Thread nD τ))) : sProp 𝕄 :=
  (bM : Memref sig .tc .vmem S1x512 .f32).view.loc (c : Thread nD τ) ↦[(bM : Memref sig .tc .vmem S1x512 .f32).view.set]{fullShare} f
def sumPts (c : Dev nD) (q : PosShare TreeShare) (f : Buf (Elt F) ((aM : Memref sig .tc .vmem S1x512 .f32).view.loc (c : Thread nD τ))) : sProp 𝕄 :=
  (aM : Memref sig .tc .vmem S1x512 .f32).view.loc (c : Thread nD τ) ↦[(aM : Memref sig .tc .vmem S1x512 .f32).view.set]{q} f

omit [FloatOps F] in
instance landPts_storable (c : Dev nD) (f) : BI.Storable (upEmb : UEmb _ 𝕄) (landPts (F := F) c f) := by unfold landPts; infer_instance
omit [FloatOps F] in
instance sumPts_storable (c : Dev nD) (q) (f) : BI.Storable (upEmb : UEmb _ 𝕄) (sumPts (F := F) c q f) := by unfold sumPts; infer_instance

omit [FloatOps F] in
theorem land_set : (bM : Memref sig .tc .vmem S1x512 .f32).view.set = Finset.univ := View.set_whole _
omit [FloatOps F] in
theorem sum_set : (aM : Memref sig .tc .vmem S1x512 .f32).view.set = Finset.univ := View.set_whole _
omit [FloatOps F] in
theorem landPts_eq (c : Dev nD) (f : Buf (Elt F) ((c : Thread nD τ).loc cc0_scratch1)) :
    landPts c f = (((c : Thread nD τ).loc cc0_scratch1) ↦{fullShare} f : sProp 𝕄) := by unfold landPts; rw [land_set]
omit [FloatOps F] in
theorem sumPts_eq (c : Dev nD) (q : PosShare TreeShare) (f : Buf (Elt F) ((c : Thread nD τ).loc cc0_scratch0)) :
    sumPts c q f = (((c : Thread nD τ).loc cc0_scratch0) ↦{q} f : sProp 𝕄) := by unfold sumPts; rw [sum_set]

/-! ## The schedule -/

/-- What `peer c`'s signal hands `c`: `peer c`'s landing row and that its receive cell is at round 0. -/
def barPay (c : Dev nD) : sProp 𝕄 := iprop((∃ f, landPts (peer c) f) ∗ reached ER (recvCell (peer c)) 0)
/-- What `peer c`'s copy hands `c`: its landing row holding `peer c`'s partial sums. -/
def recvPay (c : Dev nD) : sProp 𝕄 := landPts c (landed m c)
/-- What `c`'s own copy hands back: the half share of its partial-sum row it read from. -/
def sendPay (c : Dev nD) : sProp 𝕄 := sumPts c fullShare.left (rowSum m c)

abbrev IsProto (g : GSem nD τ sig) : Prop := g.1.2 = .tc ∧ (g.2 = .reg barS ∨ g.2 = .dma sendS.sem ∨ g.2 = .dma recvS.sem)

/-- One round, round 0, one duty a cell: a unit on a barrier cell, the row's credit on a send or receive cell. -/
def meanRd : Rounds.Schedule (GSem nD τ sig) Unit 𝕄 where
  duties g r := if r = 0 ∧ IsProto g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance meanRd_payload_storable (g : GSem nD τ sig) (r : ℕ) (d : Unit) :
    BI.Storable (upEmb : UEmb _ 𝕄) ((meanRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (meanRd (F := F) m).duties (barCell c) 0 = {()} := by dsimp only [meanRd]; exact if_pos ⟨rfl, rfl, .inl rfl⟩
theorem duties_send : (meanRd (F := F) m).duties (sendCell c) 0 = {()} := by dsimp only [meanRd]; exact if_pos ⟨rfl, rfl, .inr (.inl rfl)⟩
theorem duties_recv : (meanRd (F := F) m).duties (recvCell c) 0 = {()} := by dsimp only [meanRd]; exact if_pos ⟨rfl, rfl, .inr (.inr rfl)⟩
theorem duties_later (g : GSem nD τ sig) : ∀ r, 1 ≤ r → (meanRd (F := F) m).duties g r = ∅ :=
  fun r hr => by dsimp only [meanRd]; rw [if_neg fun h => by omega]

theorem amount_bar (d : Unit) : (meanRd (F := F) m).amount (barCell c) 0 d = 1 := by dsimp only [meanRd]; exact if_pos rfl
theorem amount_send (d : Unit) : (meanRd (F := F) m).amount (sendCell c) 0 d = N := by dsimp only [meanRd]; exact if_neg send_ne_bar
theorem amount_recv (d : Unit) : (meanRd (F := F) m).amount (recvCell c) 0 d = N := by dsimp only [meanRd]; exact if_neg recv_ne_bar

theorem expect_bar : (meanRd (F := F) m).expect (barCell c) 0 = 1 := by
  unfold Schedule.expect Schedule.amountOf; rw [duties_bar, Finset.sum_singleton, amount_bar]
theorem expect_send : (meanRd (F := F) m).expect (sendCell c) 0 = N := by
  unfold Schedule.expect Schedule.amountOf; rw [duties_send, Finset.sum_singleton, amount_send]
theorem expect_recv : (meanRd (F := F) m).expect (recvCell c) 0 = N := by
  unfold Schedule.expect Schedule.amountOf; rw [duties_recv, Finset.sum_singleton, amount_recv]

theorem payload_bar (d : Unit) : (meanRd (F := F) m).payload (barCell c) 0 d = barPay c := by dsimp only [meanRd]; rw [if_pos rfl]
theorem payload_send (d : Unit) : (meanRd (F := F) m).payload (sendCell c) 0 d = sendPay m c := by
  dsimp only [meanRd]; rw [if_neg send_ne_bar, if_neg send_ne_recv, if_pos rfl]
theorem payload_recv (d : Unit) : (meanRd (F := F) m).payload (recvCell c) 0 d = recvPay m c := by
  dsimp only [meanRd]; rw [if_neg recv_ne_bar, if_pos rfl]

theorem rest_bar : bigSep ((meanRd (F := F) m).duties (barCell c) 0 \ ∅) (fun d => (meanRd (F := F) m).payload (barCell c) 0 d) = barPay c := by
  rw [Finset.sdiff_empty, duties_bar, bigSep_singleton, payload_bar]
theorem rest_send : bigSep ((meanRd (F := F) m).duties (sendCell c) 0 \ ∅) (fun d => (meanRd (F := F) m).payload (sendCell c) 0 d) = sendPay m c := by
  rw [Finset.sdiff_empty, duties_send, bigSep_singleton, payload_send]
theorem rest_recv : bigSep ((meanRd (F := F) m).duties (recvCell c) 0 \ ∅) (fun d => (meanRd (F := F) m).payload (recvCell c) 0 d) = recvPay m c := by
  rw [Finset.sdiff_empty, duties_recv, bigSep_singleton, payload_recv]

end Sched

/-! ## What each core owes at launch; the levels -/

/-- Device `c` owes its peer's receive cell the row's credit and its peer's barrier cell one unit; the signal comes
    first and peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a level-0 cell (staging, send) while owing what is owed at launch, or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above the barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Mean

end
-- ==== Proof.KernelBody.lean ====
/-
  The column mean over a 2 × 2 mesh: one device's body.

  From its three cells at round 0, the tokens of the three duties it pays (its peer's barrier unit, its peer's
  receive credit, its own send credit) and its two scratch rows at any contents, device `c`: signals its peer's
  barrier, handing over its landing row; adds up its block's rows into its partial-sum row; waits for its own
  barrier unit, which brings the peer's landing row; copies its partial sums there, lending the copy half of the
  row; waits for the peer's copy, which brings its own landing row back holding the peer's partial sums; reads
  both rows (its own through the half it kept) and stores their scaled sum; waits for its own copy, which brings
  the lent half back. It ends owing nothing, both rows at named contents, its two scoped cells closed at zero.
-/
import proofs.«900568_g7700000000000569_dist_mean_ax0_xy_m1024_n512_v7x_xy2x2_f32_1_alg».proof.Proof.KernelProto

noncomputable section

namespace Cert.Kernel.Mean

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, at the names the launch allocated them: its own three, its peer's
    barrier cell (its signal) and receive cell (its copy). -/
def invs (K : Dev nD × Fin 3 → ℕ) (c : Dev nD) : sProp 𝕄 :=
  iprop(cellInv ER (meanRd m) (K (c, 0)) (barCell c) ∗ cellInv ER (meanRd m) (K (c, 1)) (sendCell c) ∗ cellInv ER (meanRd m) (K (c, 2)) (recvCell c)
    ∗ cellInv ER (meanRd m) (K (peer c, 0)) (barCell (peer c)) ∗ cellInv ER (meanRd m) (K (peer c, 2)) (recvCell (peer c)))

instance invs_persistent (K : Dev nD × Fin 3 → ℕ) (c : Dev nD) : BI.Persistent (invs m K c) := by unfold invs; infer_instance

/-- The protocol's ghost state device `c` starts from. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What the body starts from beside its buffers: the ghost state at some names, the credit for its two waits that
    others pay (one barrier unit, the receive credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, sumPts c fullShare f) ∗ ∃ f, landPts c f)
/-- After the point: the partial sums, the peer's partial sums landed, the two own cells at zero, closed. -/
def Φ₁ (c : Dev nD) : sProp 𝕄 :=
  iprop(sumPts c fullShare (rowSum m c) ∗ landPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rx : Rect S1024x512 := Rect.unit (s := S1024x512) ![0, 0] S1024x512.size inb_S1024x512_S1024x512_0_0
abbrev rr : Rect S1x512 := Rect.unit (s := S1x512) ![0, 0] S1x512.size inb_S1x512_S1x512_0_0

omit [FloatOps F] in
theorem hz : (![0, 0] : Fin 2 → Nat) = fun _ => 0 := funext fun a => by fin_cases a <;> rfl

-- A whole buffer read through the whole rectangle is the buffer; written through it, what is written.
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz _ f
omit [FloatOps F] in
theorem read_sum (f : (cc0_scratch0 : Ref sig .tc).ty.Contents (Elt F)) : (aM : Memref sig .tc .vmem S1x512 .f32).view.readAt (Elt F) rr.toLoadRect f = f :=
  Memref.readAt_unit_zero (Elt F) cc0_scratch0 hz _ f
omit [FloatOps F] in
theorem read_land (f : (cc0_scratch1 : Ref sig .tc).ty.Contents (Elt F)) : (bM : Memref sig .tc .vmem S1x512 .f32).view.readAt (Elt F) rr.toLoadRect f = f :=
  Memref.readAt_unit_zero (Elt F) cc0_scratch1 hz _ f
omit [FloatOps F] in
theorem write_sum (f w : (cc0_scratch0 : Ref sig .tc).ty.Contents (Elt F)) :
    ((aM : Memref sig .tc .vmem S1x512 .f32).access rr : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S1x512 .f32).access rr : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv
      ∗ (∃ f, sumPts c fullShare f) ∗ ∃ f, landPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

/-! The schedule's payloads as the buffers themselves, the peer's cells' with `peer (peer c)` reduced. -/

theorem pay_bar_own (c : Dev nD) (d : Unit) : (meanRd (F := F) m).payload (barCell c) 0 d
    = iprop((∃ f, ((bM : Memref sig .tc .vmem S1x512 .f32).view.loc ((peer c : Dev nD) : Thread nD τ) ↦[(bM : Memref sig .tc .vmem S1x512 .f32).view.set]{fullShare} f : sProp 𝕄))
        ∗ reached ER (recvCell (peer c)) 0) := by
  rw [payload_bar]; unfold barPay landPts; rfl
theorem pay_bar_peer (c : Dev nD) (d : Unit) : (meanRd (F := F) m).payload (barCell (peer c)) 0 d
    = iprop((∃ f, ((bM : Memref sig .tc .vmem S1x512 .f32).view.loc ((c : Dev nD) : Thread nD τ) ↦[(bM : Memref sig .tc .vmem S1x512 .f32).view.set]{fullShare} f : sProp 𝕄))
        ∗ reached ER (recvCell c) 0) := by
  rw [payload_bar]; unfold barPay landPts; rw [peer_peer]
theorem pay_send_own (c : Dev nD) (d : Unit) : (meanRd (F := F) m).payload (sendCell c) 0 d
    = ((aM : Memref sig .tc .vmem S1x512 .f32).view.loc ((c : Dev nD) : Thread nD τ) ↦[(aM : Memref sig .tc .vmem S1x512 .f32).view.set]{fullShare.left} rowSum m c : sProp 𝕄) := by
  rw [payload_send]; unfold sendPay sumPts; rfl
theorem pay_recv_own (c : Dev nD) (d : Unit) : (meanRd (F := F) m).payload (recvCell c) 0 d
    = ((bM : Memref sig .tc .vmem S1x512 .f32).view.loc ((c : Dev nD) : Thread nD τ) ↦[(bM : Memref sig .tc .vmem S1x512 .f32).view.set]{fullShare} landed m c : sProp 𝕄) := by
  rw [payload_recv]; unfold recvPay landPts; rfl
theorem pay_recv_peer (c : Dev nD) (d : Unit) : (meanRd (F := F) m).payload (recvCell (peer c)) 0 d
    = ((bM : Memref sig .tc .vmem S1x512 .f32).view.loc ((peer c : Dev nD) : Thread nD τ) ↦[(bM : Memref sig .tc .vmem S1x512 .f32).view.set]{fullShare} (rowSum m c : Buf (Elt F) ((bM : Memref sig .tc .vmem S1x512 .f32).view.loc ((peer c : Dev nD) : Thread nD τ))) : sProp 𝕄) := by
  rw [payload_recv]; unfold recvPay landPts landed; rw [peer_peer]

omit [FloatOps F] in
theorem stga_eq (c : Dev nD) (q : PosShare TreeShare) (f : Buf (Elt F) ((c : Thread nD τ).loc cc0_scratch0)) :
    ((aM : Memref sig .tc .vmem S1x512 .f32).view.loc (c : Thread nD τ) ↦[(aM : Memref sig .tc .vmem S1x512 .f32).view.set]{q} f : sProp 𝕄)
      = (((c : Thread nD τ).loc cc0_scratch0) ↦{q} f : sProp 𝕄) := by rw [View.set_whole]
omit [FloatOps F] in
theorem stgb_eq (c : Dev nD) (f : Buf (Elt F) ((c : Thread nD τ).loc cc0_scratch1)) :
    ((bM : Memref sig .tc .vmem S1x512 .f32).view.loc (c : Thread nD τ) ↦[(bM : Memref sig .tc .vmem S1x512 .f32).view.set]{fullShare} f : sProp 𝕄)
      = (((c : Thread nD τ).loc cc0_scratch1) ↦{fullShare} f : sProp 𝕄) := by rw [View.set_whole]
omit [FloatOps F] in
theorem stgx_eq (c : Dev nD) (f : Buf (Elt F) ((c : Thread nD τ).loc cc0_stg0_0)) :
    ((xM : Memref sig .tc .vmem S1024x512 .f32).view.loc (c : Thread nD τ) ↦[(xM : Memref sig .tc .vmem S1024x512 .f32).view.set]{fullShare} f : sProp 𝕄)
      = (((c : Thread nD τ).loc cc0_stg0_0) ↦{fullShare} f : sProp 𝕄) := by rw [View.set_whole]
omit [FloatOps F] in
theorem stgo_eq (c : Dev nD) (f : Buf (Elt F) ((c : Thread nD τ).loc cc0_stg1_0)) :
    ((oM : Memref sig .tc .vmem S1x512 .f32).view.loc (c : Thread nD τ) ↦[(oM : Memref sig .tc .vmem S1x512 .f32).view.set]{fullShare} f : sProp 𝕄)
      = (((c : Thread nD τ).loc cc0_stg1_0) ↦{fullShare} f : sProp 𝕄) := by rw [View.set_whole]

attribute [local sl_rounds] duties_bar duties_send duties_recv amount_bar amount_send amount_recv expect_bar expect_send expect_recv
  pay_bar_own pay_send_own pay_recv_own
attribute [local sl_rounds high] pay_bar_peer pay_recv_peer

/-- After the store the partial-sum row holds the block's rows added up. -/
theorem sum_stored (c : Dev nD) (fa : Buf (Elt F) ((aM : Memref sig .tc .vmem S1x512 .f32).view.loc (c : Thread nD τ))) :
    (aM : Memref sig .tc .vmem S1x512 .f32).view.writes (Elt F) fa
        [⟨rr, k0_pay2 ((xM : Memref sig .tc .vmem S1024x512 .f32).view.readAt (Elt F) rx.toLoadRect (xstg m c))⟩] = rowSum m c := by
  rw [View.writes_singleton, read_x]; exact write_sum fa _

/-- The stored row in two half shares: one for the copy to read from, one for the device to read meanwhile. -/
theorem sum_stored_split (c : Dev nD) (fa : Buf (Elt F) ((aM : Memref sig .tc .vmem S1x512 .f32).view.loc (c : Thread nD τ))) :
    ((aM : Memref sig .tc .vmem S1x512 .f32).view.loc (c : Thread nD τ) ↦[(aM : Memref sig .tc .vmem S1x512 .f32).view.set]{fullShare}
        (aM : Memref sig .tc .vmem S1x512 .f32).view.writes (Elt F) fa
          [⟨rr, k0_pay2 ((xM : Memref sig .tc .vmem S1024x512 .f32).view.readAt (Elt F) rx.toLoadRect (xstg m c))⟩] : sProp 𝕄)
      ⊢ iprop(((aM : Memref sig .tc .vmem S1x512 .f32).view.loc (c : Thread nD τ) ↦[(aM : Memref sig .tc .vmem S1x512 .f32).view.set]{fullShare.left} rowSum m c)
          ∗ ((aM : Memref sig .tc .vmem S1x512 .f32).view.loc (c : Thread nD τ) ↦[(aM : Memref sig .tc .vmem S1x512 .f32).view.set]{fullShare.right} rowSum m c)) := by
  rw [sum_stored]; exact (pointsTo_share (PosShare.mem_left_op_right fullShare)).1

/-- After the second store the result's staging row holds the two rows' scaled sum. -/
theorem out_stored (c : Dev nD) (g : Buf (Elt F) ((oM : Memref sig .tc .vmem S1x512 .f32).view.loc (c : Thread nD τ))) :
    (oM : Memref sig .tc .vmem S1x512 .f32).view.writes (Elt F) g
        [⟨rr, k0_pay1 ((aM : Memref sig .tc .vmem S1x512 .f32).view.readAt (Elt F) rr.toLoadRect (rowSum m c))
            ((bM : Memref sig .tc .vmem S1x512 .f32).view.readAt (Elt F) rr.toLoadRect (landed m c))⟩] = outAt m c := by
  rw [View.writes_singleton, read_sum, read_land]; exact write_out g _

theorem out_stored_pts (c : Dev nD) (g : Buf (Elt F) ((c : Thread nD τ).loc cc0_stg1_0)) :
    ((oM : Memref sig .tc .vmem S1x512 .f32).view.loc (c : Thread nD τ) ↦[(oM : Memref sig .tc .vmem S1x512 .f32).view.set]{fullShare}
        (oM : Memref sig .tc .vmem S1x512 .f32).view.writes (Elt F) g
          [⟨rr, k0_pay1 ((aM : Memref sig .tc .vmem S1x512 .f32).view.readAt (Elt F) rr.toLoadRect (rowSum m c))
              ((bM : Memref sig .tc .vmem S1x512 .f32).view.readAt (Elt F) rr.toLoadRect (landed m c))⟩] : sProp 𝕄)
      = (((c : Thread nD τ).loc cc0_stg1_0) ↦{fullShare} outAt m c : sProp 𝕄) := by
  rw [out_stored]; exact stgo_eq c _

/-- The copy of the partial sums into the peer's landing row: the send rule at this protocol's cells, the target device
    `n` any device equal to the peer. The copy borrows the left half of the row and pays the device's own send duty
    with it; it pays the peer's receive duty with the peer's landing row holding the partial sums. -/
theorem wp_send_row (c n : Dev nD) (hn : n = peer c) {hsc : (bM : Memref sig (Dev.tc n : Thread nD τ).2.kind .vmem S1x512 .f32).view.ref.isScScratch = false}
    {hsrc : (aM : Memref sig .tc .vmem S1x512 .f32).view.WordExact} {hdst : (bM : Memref sig .tc .vmem S1x512 .f32).view.WordExact}
    {hsem : DmaTarget.Typed .vmem (.dma recvS.sem) (.remote (Dev.tc n : Thread nD τ) (bM : Memref sig .tc .vmem S1x512 .f32) (.dma sendS.sem) hsc)}
    {α : Type} {Q : α → sProp 𝕄} {k : PUnit → Prog (TpuEff nD τ sig (Elt F) Λ₀ .tc) α}
    (fn : Buf (Elt F) ((bM : Memref sig .tc .vmem S1x512 .f32).view.loc (peer c : Thread nD τ))) (W : Waits sig Unit) :
    iprop(cellInv ER (meanRd m) (K (c, 1)) (sendCell c) ∗ cellInv ER (meanRd m) (K (peer c, 2)) (recvCell (peer c))
        ∗ ((aM : Memref sig .tc .vmem S1x512 .f32).view.loc (c : Thread nD τ) ↦[(aM : Memref sig .tc .vmem S1x512 .f32).view.set]{fullShare.left} rowSum m c)
        ∗ ((bM : Memref sig .tc .vmem S1x512 .f32).view.loc (peer c : Thread nD τ) ↦[(bM : Memref sig .tc .vmem S1x512 .f32).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) bM (.dma sendS.sem) hsc) (.dma recvS.sem) hsrc hdst hsem) k) Q) := by
  subst hn
  exact Rounds.wp_send_pointsTo 𝒱₀ ER (meanRd m) (c : Thread nD τ) none (c' := (peer c : Thread nD τ))
    (src := (aM : Memref sig .tc .vmem S1x512 .f32)) (dst := (bM : Memref sig .tc .vmem S1x512 .f32))
    (sS := .dma sendS.sem) (sem := .dma recvS.sem) (κ₁ := K (c, 1)) (κ₂ := K (peer c, 2))
    (r₁ := 0) (r₂ := 0) (d₁ := ()) (d₂ := ()) (q := fullShare.left) (fs := rowSum m c) (fd := fn)
    (by rw [duties_send]; exact Finset.mem_singleton_self _) (by rw [duties_recv]; exact Finset.mem_singleton_self _)
    () () N rfl (amount_send m c ()) (amount_recv m (peer c) ()) 0 (by rw [zero_add]) (W := W)
    (by rw [pay_send_own])
    (by rw [pay_recv_peer, landed_eq])

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  simp only [sumPts_eq, landPts_eq]
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fa, Hsum⟩, ⟨%fb, Hland⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  simp only [dev1_eq c, dev2_eq c]
  ihave Hsum := (Entails.of_eq (stga_eq c _ _).symm) $$ Hsum
  ihave Hland := (Entails.of_eq (stgb_eq c _).symm) $$ Hland
  ihave Hx := (Entails.of_eq (stgx_eq c _).symm) $$ Hx
  ihave Hout := (Entails.of_eq (stgo_eq c _).symm) $$ Hout
  have hmwB := mayWait_bar (F := F) c
  have hd2 : (⟨k0_dev2 c, k0_dev2_lt c⟩ : Dev nD) = peer c := dev2_eq c
  -- the signal, the two loads, the store and the barrier wait
  sl_exec
  -- the copy to the peer, lending the left half of the row
  ihave Hs := (sum_stored_split m c fa) $$ Hsum
  icases Hs with ⟨HsumL, HsumR⟩
  iapply (wp_send_row m K c _ (dev2_eq c) HatB_pay1_v (insert (SemLoc.reg barS, ()) W)) $$ [HsumL HatB_pay1 HO HtS HtVP]
  · isplitr; · iexact HIsnd
    isplitr; · iexact HIrcvP
    isplitl [HsumL]; · iexact HsumL
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- the receive wait, the loads, the store and the send wait
  sl_exec
  -- the two own cells close: their counters at zero are the core's again
  imod (Rounds.cell_close ER (meanRd m) (Set.mem_univ (K (c, 1))) (fun h => h) (R := 0 + 1) (duties_later m (sendCell c))) $$ [HatS] with HzS
  · isplitr; · iexact HIsnd
    iexact HatS
  imod (Rounds.cell_close ER (meanRd m) (Set.mem_univ (K (c, 2))) (fun h => h) (R := 0 + 1) (duties_later m (recvCell c))) $$ [HatV] with HzV
  · isplitr; · iexact HIrcv
    iexact HatV
  -- the lent half comes back to the half kept
  ihave Hsum := ((pointsTo_share (PosShare.mem_left_op_right fullShare)).2) $$ [HatS_pay1 HsumR]
  · isplitl [HatS_pay1] <;> iassumption
  ihave Hx := (Entails.of_eq (stgx_eq c _)) $$ Hx
  ihave Hout := (Entails.of_eq (out_stored_pts m c g1)) $$ Hout
  rw [wp_ret]; imodintro
  iapply Hk
  unfold bodyPost Φ₁ Dat.owesAt Pipeline.owesWithin sumPts landPts
  rw [show (dats m 0 c).owed t₀.succ = 0 from rfl]
  isplitl [Hsum HatV_pay1 HzS HzV]
  · isplitl [Hsum]; · iexact Hsum
    isplitl [HatV_pay1]; · iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hsum, Hland⟩, Ho, Hx, Hout⟩
  iapply (sound_body m K c fun _ => bodyPost m c)
  unfold bodyPre
  isplitr []
  · isplitl [Hg Hrest Hsum Hland]
    · isplitl [Hg]; · iexact Hg
      icases Hrest with ⟨H1, H2, H3⟩
      isplitl [H1]; · iexact H1
      isplitl [H2]; · iexact H2
      isplitl [H3]; · iexact H3
      isplitl [Hsum] <;> iassumption
    isplitl [Ho]; · iexact Ho
    isplitl [Hx] <;> iassumption
  · iintro H; iexact H

end Body

end Cert.Kernel.Mean

end
-- ==== Proof.KernelLaunch.lean ====
/-
  The column mean over a 2 × 2 mesh: the launch.

  The three cells of every device are allocated under one update at launch (the barrier semaphore is the runtime's,
  so its counter at zero comes with the launch's unscoped semaphores, the send and receive semaphores with the
  kernel's own), their tokens dealt across the first mesh axis: a device pays its peer's barrier unit and receive
  credit and its own send credit. The launch credit on a device's barrier cell is the one unit its peer owes it, on
  its receive cell the row's credit its peer owes it. The run's post names every window's array after the run.
-/
import proofs.«900568_g7700000000000569_dist_mean_ax0_xy_m1024_n512_v7x_xy2x2_f32_1_alg».proof.Proof.KernelBody

noncomputable section

namespace Cert.Kernel.Mean

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩
def protoToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf protoCells protoToks)

/-- The duty tokens of device `c`'s own cells. -/
def toks (c : Dev nD) : sProp 𝕄 := iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (meanRd m) (kcell (c, k)) 0)
    ∗ (bigSep Finset.univ fun k : Fin 3 => iprop(atPos ER (kcell (c, k)) 0 ∅ 0 ∗ reached ER (kcell (c, k)) 0)) ∗ toks c)
/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (meanRd m) protoCells protoToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (meanRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (meanRd m) (kcell (c, k)) 0)
      ⊢ (|={Set.univ}=> bigSep Finset.univ fun k => iprop(∃ κ : ℕ, cellInv ER (meanRd m) κ (kcell (c, k))) : sProp 𝕄) from by
        rw [← bigSep_sep']
        exact (bigSep_mono fun k _ => (Rounds.body_intro ER (meanRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (meanRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (meanRd m) (K ck) (kcell ck) : sProp 𝕄)) ⊢ cellInv ER (meanRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the axis: a barrier's token and a receive cell's token go to the peer. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (meanRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (meanRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (meanRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%fa, Ha⟩, ⟨%fb, Hb⟩⟩
  isplitl [Hs]; · iexact Hs
  isplitl [Ha]
  · iexists fa; rw [sumPts_eq]; iexact Ha
  · iexists fb; rw [landPts_eq]; iexact Hb

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Ha, Hb, HzS, HzV⟩
  isplitr; · iempintro
  isplitl [HzS HzV]
  · isplitl [HzS] <;> iassumption
  isplitl [Ha]
  · iexists (rowSum m c); rw [← sumPts_eq]; iexact Ha
  · iexists (landed m c); rw [← landPts_eq]; iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main terminates, and every final state has each device's windows' arrays at the contents the proof
    data name. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Mean.run_main' depends on axioms: [propext, Classical.choice, Quot.sound] -/
#guard_msgs in #print axioms run_main

/-- The argument array after the run holds what it held. -/
theorem finalA_x (c : Dev nD) : finalA m c (0 : Fin 2) = m (win0_0.arr.view.loc (c : Thread nD τ)) :=
  (dats (F := F) m 0 c).arrAt_in (0 : Fin 2) rfl _

end Cert.Kernel.Mean

end
-- ==== Proof.KernelIdealProto.lean ====
/-
  The column mean over a 2 × 2 mesh: the cross-device protocol.

  Device `c` holds the block `(c / 2, c % 2)` of a 2048 × 1024 array. It adds up its 1024 rows into a row of 512
  partial sums, exchanges that row with the device across the mesh's first axis (`peer c`, the same column block,
  the other row block) and scales the two rows' sum by 1/2048. The exchange is an entry handshake on the runtime's
  barrier semaphore followed by one addressed copy with a send and a receive semaphore.

  Three cells a device, one duty each, all at round 0:
  * the barrier cell of `c`: one unit, paid by `peer c`'s signal, which hands `c` the landing row of `peer c`
    (at any contents) and that `peer c`'s receive cell is at round 0: what `c`'s copy into it needs;
  * the receive cell of `c`: the row's credit, paid by `peer c`'s copy, which hands `c` its landing row holding
    `peer c`'s partial sums;
  * the send cell of `c`: the row's credit, paid by `c`'s own copy, which hands back the half share of the
    partial-sum row the copy reads from (the other half stays with `c`, which reads the row while the copy is out).
  Levels: barrier cells below receive cells; a device waits on its barrier owing only the peer's receive credit.
-/
import proofs.«900568_g7700000000000569_dist_mean_ax0_xy_m1024_n512_v7x_xy2x2_f32_1_alg».proof.Proof.Gen.KernelIdeal
import proofs.«900568_g7700000000000569_dist_mean_ax0_xy_m1024_n512_v7x_xy2x2_f32_1_alg».proof.Proof.Gen.KernelIdeal.Skeleton
import proofs.«900568_g7700000000000569_dist_mean_ax0_xy_m1024_n512_v7x_xy2x2_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The peer: the device across the first mesh axis -/

/-- Device `c` sits at `(c / 2, c % 2)`; its peer at `(1 - c / 2, c % 2)`. -/
def peer (c : Dev nD) : Dev nD := ⟨(c.val % 2 + 2) - 2 * (c.val / 2), by have := c.isLt; revert this; generalize c.val = v; decide +revert⟩

theorem peer_peer (c : Dev nD) : peer (peer c) = c := by revert c; decide
theorem peer_ne (c : Dev nD) : peer c ≠ c := by revert c; decide
theorem peer_val (c : Dev nD) : (peer c).val = (c.val % 2 + 2) - 2 * (c.val / 2) := rfl

/-- Both of the kernel's device chains name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs and the cells -/

abbrev xM : Memref sig .tc .vmem S1024x512 .f32 := Memref.whole cc0_stg0_0
abbrev oM : Memref sig .tc .vmem S1x512 .f32 := Memref.whole cc0_stg1_0
/-- The row of partial sums (the copy's source) and the landing row (its destination). -/
abbrev aM : Memref sig .tc .vmem S1x512 .f32 := Memref.whole cc0_scratch0
abbrev bM : Memref sig .tc .vmem S1x512 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the protocol's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (bM : Memref sig .tc .vmem S1x512 .f32).view.dmaCredit
theorem N_pos : 0 < N := View.dmaCredit_pos _ (by decide)

/-! ## Contents -/

/-- Device `c`'s block of the argument array, as the pipeline stages it. -/
def xstg (c : Dev nD) : (cc0_stg0_0 : Ref sig .tc).ty.Contents (Elt F) :=
  (win0_0.blk (0 : Fin 1)).view.read (Elt F) (m ((c : Thread nD τ).loc main_arg0))

/-- Device `c`'s row of partial sums: its block's 1024 rows added up. -/
def rowSum (c : Dev nD) : (cc0_scratch0 : Ref sig .tc).ty.Contents (Elt F) := k0_pay2 (xstg m c)

/-- What lands on device `c`: its peer's row of partial sums. -/
def landed (c : Dev nD) : Buf (Elt F) ((bM : Memref sig .tc .vmem S1x512 .f32).view.loc (c : Thread nD τ)) := rowSum m (peer c)

/-- The result row of device `c`: the two rows' sum, scaled. -/
def outAt (c : Dev nD) : (cc0_stg1_0 : Ref sig .tc).ty.Contents (Elt F) := k0_pay1 (rowSum m c) (rowSum m (peer c))

omit [FloatOps F] in
/-- A whole row written over a whole row is the row written. -/
theorem landed_eq (c : Dev nD) (fd : Buf (Elt F) ((bM : Memref sig .tc .vmem S1x512 .f32).view.loc (c : Thread nD τ))) (fs : (cc0_scratch0 : Ref sig .tc).ty.Contents (Elt F)) :
    (bM : Memref sig .tc .vmem S1x512 .f32).view.write (Elt F) fd ((aM : Memref sig .tc .vmem S1x512 .f32).view.read (Elt F) fs) Finset.univ = fs := by
  show (View.whole cc0_scratch1).write (Elt F) fd ((View.whole cc0_scratch0).read (Elt F) fs) Finset.univ = fs
  rw [View.read_whole]
  exact View.write_whole_univ _ _ _

/-- The landing row of device `c` at contents `f`; the partial-sum row at a share. -/
def landPts (c : Dev nD) (f : Buf (Elt F) ((bM : Memref sig .tc .vmem S1x512 .f32).view.loc (c : Thread nD τ))) : sProp 𝕄 :=
  (bM : Memref sig .tc .vmem S1x512 .f32).view.loc (c : Thread nD τ) ↦[(bM : Memref sig .tc .vmem S1x512 .f32).view.set]{fullShare} f
def sumPts (c : Dev nD) (q : PosShare TreeShare) (f : Buf (Elt F) ((aM : Memref sig .tc .vmem S1x512 .f32).view.loc (c : Thread nD τ))) : sProp 𝕄 :=
  (aM : Memref sig .tc .vmem S1x512 .f32).view.loc (c : Thread nD τ) ↦[(aM : Memref sig .tc .vmem S1x512 .f32).view.set]{q} f

omit [FloatOps F] in
instance landPts_storable (c : Dev nD) (f) : BI.Storable (upEmb : UEmb _ 𝕄) (landPts (F := F) c f) := by unfold landPts; infer_instance
omit [FloatOps F] in
instance sumPts_storable (c : Dev nD) (q) (f) : BI.Storable (upEmb : UEmb _ 𝕄) (sumPts (F := F) c q f) := by unfold sumPts; infer_instance

omit [FloatOps F] in
theorem land_set : (bM : Memref sig .tc .vmem S1x512 .f32).view.set = Finset.univ := View.set_whole _
omit [FloatOps F] in
theorem sum_set : (aM : Memref sig .tc .vmem S1x512 .f32).view.set = Finset.univ := View.set_whole _
omit [FloatOps F] in
theorem landPts_eq (c : Dev nD) (f : Buf (Elt F) ((c : Thread nD τ).loc cc0_scratch1)) :
    landPts c f = (((c : Thread nD τ).loc cc0_scratch1) ↦{fullShare} f : sProp 𝕄) := by unfold landPts; rw [land_set]
omit [FloatOps F] in
theorem sumPts_eq (c : Dev nD) (q : PosShare TreeShare) (f : Buf (Elt F) ((c : Thread nD τ).loc cc0_scratch0)) :
    sumPts c q f = (((c : Thread nD τ).loc cc0_scratch0) ↦{q} f : sProp 𝕄) := by unfold sumPts; rw [sum_set]

/-! ## The schedule -/

/-- What `peer c`'s signal hands `c`: `peer c`'s landing row and that its receive cell is at round 0. -/
def barPay (c : Dev nD) : sProp 𝕄 := iprop((∃ f, landPts (peer c) f) ∗ reached ER (recvCell (peer c)) 0)
/-- What `peer c`'s copy hands `c`: its landing row holding `peer c`'s partial sums. -/
def recvPay (c : Dev nD) : sProp 𝕄 := landPts c (landed m c)
/-- What `c`'s own copy hands back: the half share of its partial-sum row it read from. -/
def sendPay (c : Dev nD) : sProp 𝕄 := sumPts c fullShare.left (rowSum m c)

abbrev IsProto (g : GSem nD τ sig) : Prop := g.1.2 = .tc ∧ (g.2 = .reg barS ∨ g.2 = .dma sendS.sem ∨ g.2 = .dma recvS.sem)

/-- One round, round 0, one duty a cell: a unit on a barrier cell, the row's credit on a send or receive cell. -/
def meanRd : Rounds.Schedule (GSem nD τ sig) Unit 𝕄 where
  duties g r := if r = 0 ∧ IsProto g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance meanRd_payload_storable (g : GSem nD τ sig) (r : ℕ) (d : Unit) :
    BI.Storable (upEmb : UEmb _ 𝕄) ((meanRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (meanRd (F := F) m).duties (barCell c) 0 = {()} := by dsimp only [meanRd]; exact if_pos ⟨rfl, rfl, .inl rfl⟩
theorem duties_send : (meanRd (F := F) m).duties (sendCell c) 0 = {()} := by dsimp only [meanRd]; exact if_pos ⟨rfl, rfl, .inr (.inl rfl)⟩
theorem duties_recv : (meanRd (F := F) m).duties (recvCell c) 0 = {()} := by dsimp only [meanRd]; exact if_pos ⟨rfl, rfl, .inr (.inr rfl)⟩
theorem duties_later (g : GSem nD τ sig) : ∀ r, 1 ≤ r → (meanRd (F := F) m).duties g r = ∅ :=
  fun r hr => by dsimp only [meanRd]; rw [if_neg fun h => by omega]

theorem amount_bar (d : Unit) : (meanRd (F := F) m).amount (barCell c) 0 d = 1 := by dsimp only [meanRd]; exact if_pos rfl
theorem amount_send (d : Unit) : (meanRd (F := F) m).amount (sendCell c) 0 d = N := by dsimp only [meanRd]; exact if_neg send_ne_bar
theorem amount_recv (d : Unit) : (meanRd (F := F) m).amount (recvCell c) 0 d = N := by dsimp only [meanRd]; exact if_neg recv_ne_bar

theorem expect_bar : (meanRd (F := F) m).expect (barCell c) 0 = 1 := by
  unfold Schedule.expect Schedule.amountOf; rw [duties_bar, Finset.sum_singleton, amount_bar]
theorem expect_send : (meanRd (F := F) m).expect (sendCell c) 0 = N := by
  unfold Schedule.expect Schedule.amountOf; rw [duties_send, Finset.sum_singleton, amount_send]
theorem expect_recv : (meanRd (F := F) m).expect (recvCell c) 0 = N := by
  unfold Schedule.expect Schedule.amountOf; rw [duties_recv, Finset.sum_singleton, amount_recv]

theorem payload_bar (d : Unit) : (meanRd (F := F) m).payload (barCell c) 0 d = barPay c := by dsimp only [meanRd]; rw [if_pos rfl]
theorem payload_send (d : Unit) : (meanRd (F := F) m).payload (sendCell c) 0 d = sendPay m c := by
  dsimp only [meanRd]; rw [if_neg send_ne_bar, if_neg send_ne_recv, if_pos rfl]
theorem payload_recv (d : Unit) : (meanRd (F := F) m).payload (recvCell c) 0 d = recvPay m c := by
  dsimp only [meanRd]; rw [if_neg recv_ne_bar, if_pos rfl]

theorem rest_bar : bigSep ((meanRd (F := F) m).duties (barCell c) 0 \ ∅) (fun d => (meanRd (F := F) m).payload (barCell c) 0 d) = barPay c := by
  rw [Finset.sdiff_empty, duties_bar, bigSep_singleton, payload_bar]
theorem rest_send : bigSep ((meanRd (F := F) m).duties (sendCell c) 0 \ ∅) (fun d => (meanRd (F := F) m).payload (sendCell c) 0 d) = sendPay m c := by
  rw [Finset.sdiff_empty, duties_send, bigSep_singleton, payload_send]
theorem rest_recv : bigSep ((meanRd (F := F) m).duties (recvCell c) 0 \ ∅) (fun d => (meanRd (F := F) m).payload (recvCell c) 0 d) = recvPay m c := by
  rw [Finset.sdiff_empty, duties_recv, bigSep_singleton, payload_recv]

end Sched

/-! ## What each core owes at launch; the levels -/

/-- Device `c` owes its peer's receive cell the row's credit and its peer's barrier cell one unit; the signal comes
    first and peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a level-0 cell (staging, send) while owing what is owed at launch, or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above the barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Mean

end
-- ==== Proof.KernelIdealBody.lean ====
/-
  The column mean over a 2 × 2 mesh: one device's body.

  From its three cells at round 0, the tokens of the three duties it pays (its peer's barrier unit, its peer's
  receive credit, its own send credit) and its two scratch rows at any contents, device `c`: signals its peer's
  barrier, handing over its landing row; adds up its block's rows into its partial-sum row; waits for its own
  barrier unit, which brings the peer's landing row; copies its partial sums there, lending the copy half of the
  row; waits for the peer's copy, which brings its own landing row back holding the peer's partial sums; reads
  both rows (its own through the half it kept) and stores their scaled sum; waits for its own copy, which brings
  the lent half back. It ends owing nothing, both rows at named contents, its two scoped cells closed at zero.
-/
import proofs.«900568_g7700000000000569_dist_mean_ax0_xy_m1024_n512_v7x_xy2x2_f32_1_alg».proof.Proof.KernelIdealProto

noncomputable section

namespace Cert.KernelIdeal.Mean

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, at the names the launch allocated them: its own three, its peer's
    barrier cell (its signal) and receive cell (its copy). -/
def invs (K : Dev nD × Fin 3 → ℕ) (c : Dev nD) : sProp 𝕄 :=
  iprop(cellInv ER (meanRd m) (K (c, 0)) (barCell c) ∗ cellInv ER (meanRd m) (K (c, 1)) (sendCell c) ∗ cellInv ER (meanRd m) (K (c, 2)) (recvCell c)
    ∗ cellInv ER (meanRd m) (K (peer c, 0)) (barCell (peer c)) ∗ cellInv ER (meanRd m) (K (peer c, 2)) (recvCell (peer c)))

instance invs_persistent (K : Dev nD × Fin 3 → ℕ) (c : Dev nD) : BI.Persistent (invs m K c) := by unfold invs; infer_instance

/-- The protocol's ghost state device `c` starts from. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What the body starts from beside its buffers: the ghost state at some names, the credit for its two waits that
    others pay (one barrier unit, the receive credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, sumPts c fullShare f) ∗ ∃ f, landPts c f)
/-- After the point: the partial sums, the peer's partial sums landed, the two own cells at zero, closed. -/
def Φ₁ (c : Dev nD) : sProp 𝕄 :=
  iprop(sumPts c fullShare (rowSum m c) ∗ landPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rx : Rect S1024x512 := Rect.unit (s := S1024x512) ![0, 0] S1024x512.size inb_S1024x512_S1024x512_0_0
abbrev rr : Rect S1x512 := Rect.unit (s := S1x512) ![0, 0] S1x512.size inb_S1x512_S1x512_0_0

omit [FloatOps F] in
theorem hz : (![0, 0] : Fin 2 → Nat) = fun _ => 0 := funext fun a => by fin_cases a <;> rfl

-- A whole buffer read through the whole rectangle is the buffer; written through it, what is written.
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz _ f
omit [FloatOps F] in
theorem read_sum (f : (cc0_scratch0 : Ref sig .tc).ty.Contents (Elt F)) : (aM : Memref sig .tc .vmem S1x512 .f32).view.readAt (Elt F) rr.toLoadRect f = f :=
  Memref.readAt_unit_zero (Elt F) cc0_scratch0 hz _ f
omit [FloatOps F] in
theorem read_land (f : (cc0_scratch1 : Ref sig .tc).ty.Contents (Elt F)) : (bM : Memref sig .tc .vmem S1x512 .f32).view.readAt (Elt F) rr.toLoadRect f = f :=
  Memref.readAt_unit_zero (Elt F) cc0_scratch1 hz _ f
omit [FloatOps F] in
theorem write_sum (f w : (cc0_scratch0 : Ref sig .tc).ty.Contents (Elt F)) :
    ((aM : Memref sig .tc .vmem S1x512 .f32).access rr : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S1x512 .f32).access rr : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv
      ∗ (∃ f, sumPts c fullShare f) ∗ ∃ f, landPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

/-! The schedule's payloads as the buffers themselves, the peer's cells' with `peer (peer c)` reduced. -/

theorem pay_bar_own (c : Dev nD) (d : Unit) : (meanRd (F := F) m).payload (barCell c) 0 d
    = iprop((∃ f, ((bM : Memref sig .tc .vmem S1x512 .f32).view.loc ((peer c : Dev nD) : Thread nD τ) ↦[(bM : Memref sig .tc .vmem S1x512 .f32).view.set]{fullShare} f : sProp 𝕄))
        ∗ reached ER (recvCell (peer c)) 0) := by
  rw [payload_bar]; unfold barPay landPts; rfl
theorem pay_bar_peer (c : Dev nD) (d : Unit) : (meanRd (F := F) m).payload (barCell (peer c)) 0 d
    = iprop((∃ f, ((bM : Memref sig .tc .vmem S1x512 .f32).view.loc ((c : Dev nD) : Thread nD τ) ↦[(bM : Memref sig .tc .vmem S1x512 .f32).view.set]{fullShare} f : sProp 𝕄))
        ∗ reached ER (recvCell c) 0) := by
  rw [payload_bar]; unfold barPay landPts; rw [peer_peer]
theorem pay_send_own (c : Dev nD) (d : Unit) : (meanRd (F := F) m).payload (sendCell c) 0 d
    = ((aM : Memref sig .tc .vmem S1x512 .f32).view.loc ((c : Dev nD) : Thread nD τ) ↦[(aM : Memref sig .tc .vmem S1x512 .f32).view.set]{fullShare.left} rowSum m c : sProp 𝕄) := by
  rw [payload_send]; unfold sendPay sumPts; rfl
theorem pay_recv_own (c : Dev nD) (d : Unit) : (meanRd (F := F) m).payload (recvCell c) 0 d
    = ((bM : Memref sig .tc .vmem S1x512 .f32).view.loc ((c : Dev nD) : Thread nD τ) ↦[(bM : Memref sig .tc .vmem S1x512 .f32).view.set]{fullShare} landed m c : sProp 𝕄) := by
  rw [payload_recv]; unfold recvPay landPts; rfl
theorem pay_recv_peer (c : Dev nD) (d : Unit) : (meanRd (F := F) m).payload (recvCell (peer c)) 0 d
    = ((bM : Memref sig .tc .vmem S1x512 .f32).view.loc ((peer c : Dev nD) : Thread nD τ) ↦[(bM : Memref sig .tc .vmem S1x512 .f32).view.set]{fullShare} (rowSum m c : Buf (Elt F) ((bM : Memref sig .tc .vmem S1x512 .f32).view.loc ((peer c : Dev nD) : Thread nD τ))) : sProp 𝕄) := by
  rw [payload_recv]; unfold recvPay landPts landed; rw [peer_peer]

omit [FloatOps F] in
theorem stga_eq (c : Dev nD) (q : PosShare TreeShare) (f : Buf (Elt F) ((c : Thread nD τ).loc cc0_scratch0)) :
    ((aM : Memref sig .tc .vmem S1x512 .f32).view.loc (c : Thread nD τ) ↦[(aM : Memref sig .tc .vmem S1x512 .f32).view.set]{q} f : sProp 𝕄)
      = (((c : Thread nD τ).loc cc0_scratch0) ↦{q} f : sProp 𝕄) := by rw [View.set_whole]
omit [FloatOps F] in
theorem stgb_eq (c : Dev nD) (f : Buf (Elt F) ((c : Thread nD τ).loc cc0_scratch1)) :
    ((bM : Memref sig .tc .vmem S1x512 .f32).view.loc (c : Thread nD τ) ↦[(bM : Memref sig .tc .vmem S1x512 .f32).view.set]{fullShare} f : sProp 𝕄)
      = (((c : Thread nD τ).loc cc0_scratch1) ↦{fullShare} f : sProp 𝕄) := by rw [View.set_whole]
omit [FloatOps F] in
theorem stgx_eq (c : Dev nD) (f : Buf (Elt F) ((c : Thread nD τ).loc cc0_stg0_0)) :
    ((xM : Memref sig .tc .vmem S1024x512 .f32).view.loc (c : Thread nD τ) ↦[(xM : Memref sig .tc .vmem S1024x512 .f32).view.set]{fullShare} f : sProp 𝕄)
      = (((c : Thread nD τ).loc cc0_stg0_0) ↦{fullShare} f : sProp 𝕄) := by rw [View.set_whole]
omit [FloatOps F] in
theorem stgo_eq (c : Dev nD) (f : Buf (Elt F) ((c : Thread nD τ).loc cc0_stg1_0)) :
    ((oM : Memref sig .tc .vmem S1x512 .f32).view.loc (c : Thread nD τ) ↦[(oM : Memref sig .tc .vmem S1x512 .f32).view.set]{fullShare} f : sProp 𝕄)
      = (((c : Thread nD τ).loc cc0_stg1_0) ↦{fullShare} f : sProp 𝕄) := by rw [View.set_whole]

attribute [local sl_rounds] duties_bar duties_send duties_recv amount_bar amount_send amount_recv expect_bar expect_send expect_recv
  pay_bar_own pay_send_own pay_recv_own
attribute [local sl_rounds high] pay_bar_peer pay_recv_peer

/-- After the store the partial-sum row holds the block's rows added up. -/
theorem sum_stored (c : Dev nD) (fa : Buf (Elt F) ((aM : Memref sig .tc .vmem S1x512 .f32).view.loc (c : Thread nD τ))) :
    (aM : Memref sig .tc .vmem S1x512 .f32).view.writes (Elt F) fa
        [⟨rr, k0_pay2 ((xM : Memref sig .tc .vmem S1024x512 .f32).view.readAt (Elt F) rx.toLoadRect (xstg m c))⟩] = rowSum m c := by
  rw [View.writes_singleton, read_x]; exact write_sum fa _

/-- The stored row in two half shares: one for the copy to read from, one for the device to read meanwhile. -/
theorem sum_stored_split (c : Dev nD) (fa : Buf (Elt F) ((aM : Memref sig .tc .vmem S1x512 .f32).view.loc (c : Thread nD τ))) :
    ((aM : Memref sig .tc .vmem S1x512 .f32).view.loc (c : Thread nD τ) ↦[(aM : Memref sig .tc .vmem S1x512 .f32).view.set]{fullShare}
        (aM : Memref sig .tc .vmem S1x512 .f32).view.writes (Elt F) fa
          [⟨rr, k0_pay2 ((xM : Memref sig .tc .vmem S1024x512 .f32).view.readAt (Elt F) rx.toLoadRect (xstg m c))⟩] : sProp 𝕄)
      ⊢ iprop(((aM : Memref sig .tc .vmem S1x512 .f32).view.loc (c : Thread nD τ) ↦[(aM : Memref sig .tc .vmem S1x512 .f32).view.set]{fullShare.left} rowSum m c)
          ∗ ((aM : Memref sig .tc .vmem S1x512 .f32).view.loc (c : Thread nD τ) ↦[(aM : Memref sig .tc .vmem S1x512 .f32).view.set]{fullShare.right} rowSum m c)) := by
  rw [sum_stored]; exact (pointsTo_share (PosShare.mem_left_op_right fullShare)).1

/-- After the second store the result's staging row holds the two rows' scaled sum. -/
theorem out_stored (c : Dev nD) (g : Buf (Elt F) ((oM : Memref sig .tc .vmem S1x512 .f32).view.loc (c : Thread nD τ))) :
    (oM : Memref sig .tc .vmem S1x512 .f32).view.writes (Elt F) g
        [⟨rr, k0_pay1 ((aM : Memref sig .tc .vmem S1x512 .f32).view.readAt (Elt F) rr.toLoadRect (rowSum m c))
            ((bM : Memref sig .tc .vmem S1x512 .f32).view.readAt (Elt F) rr.toLoadRect (landed m c))⟩] = outAt m c := by
  rw [View.writes_singleton, read_sum, read_land]; exact write_out g _

theorem out_stored_pts (c : Dev nD) (g : Buf (Elt F) ((c : Thread nD τ).loc cc0_stg1_0)) :
    ((oM : Memref sig .tc .vmem S1x512 .f32).view.loc (c : Thread nD τ) ↦[(oM : Memref sig .tc .vmem S1x512 .f32).view.set]{fullShare}
        (oM : Memref sig .tc .vmem S1x512 .f32).view.writes (Elt F) g
          [⟨rr, k0_pay1 ((aM : Memref sig .tc .vmem S1x512 .f32).view.readAt (Elt F) rr.toLoadRect (rowSum m c))
              ((bM : Memref sig .tc .vmem S1x512 .f32).view.readAt (Elt F) rr.toLoadRect (landed m c))⟩] : sProp 𝕄)
      = (((c : Thread nD τ).loc cc0_stg1_0) ↦{fullShare} outAt m c : sProp 𝕄) := by
  rw [out_stored]; exact stgo_eq c _

/-- The copy of the partial sums into the peer's landing row: the send rule at this protocol's cells, the target device
    `n` any device equal to the peer. The copy borrows the left half of the row and pays the device's own send duty
    with it; it pays the peer's receive duty with the peer's landing row holding the partial sums. -/
theorem wp_send_row (c n : Dev nD) (hn : n = peer c) {hsc : (bM : Memref sig (Dev.tc n : Thread nD τ).2.kind .vmem S1x512 .f32).view.ref.isScScratch = false}
    {hsrc : (aM : Memref sig .tc .vmem S1x512 .f32).view.WordExact} {hdst : (bM : Memref sig .tc .vmem S1x512 .f32).view.WordExact}
    {hsem : DmaTarget.Typed .vmem (.dma recvS.sem) (.remote (Dev.tc n : Thread nD τ) (bM : Memref sig .tc .vmem S1x512 .f32) (.dma sendS.sem) hsc)}
    {α : Type} {Q : α → sProp 𝕄} {k : PUnit → Prog (TpuEff nD τ sig (Elt F) Λ₀ .tc) α}
    (fn : Buf (Elt F) ((bM : Memref sig .tc .vmem S1x512 .f32).view.loc (peer c : Thread nD τ))) (W : Waits sig Unit) :
    iprop(cellInv ER (meanRd m) (K (c, 1)) (sendCell c) ∗ cellInv ER (meanRd m) (K (peer c, 2)) (recvCell (peer c))
        ∗ ((aM : Memref sig .tc .vmem S1x512 .f32).view.loc (c : Thread nD τ) ↦[(aM : Memref sig .tc .vmem S1x512 .f32).view.set]{fullShare.left} rowSum m c)
        ∗ ((bM : Memref sig .tc .vmem S1x512 .f32).view.loc (peer c : Thread nD τ) ↦[(bM : Memref sig .tc .vmem S1x512 .f32).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) bM (.dma sendS.sem) hsc) (.dma recvS.sem) hsrc hdst hsem) k) Q) := by
  subst hn
  exact Rounds.wp_send_pointsTo 𝒱₀ ER (meanRd m) (c : Thread nD τ) none (c' := (peer c : Thread nD τ))
    (src := (aM : Memref sig .tc .vmem S1x512 .f32)) (dst := (bM : Memref sig .tc .vmem S1x512 .f32))
    (sS := .dma sendS.sem) (sem := .dma recvS.sem) (κ₁ := K (c, 1)) (κ₂ := K (peer c, 2))
    (r₁ := 0) (r₂ := 0) (d₁ := ()) (d₂ := ()) (q := fullShare.left) (fs := rowSum m c) (fd := fn)
    (by rw [duties_send]; exact Finset.mem_singleton_self _) (by rw [duties_recv]; exact Finset.mem_singleton_self _)
    () () N rfl (amount_send m c ()) (amount_recv m (peer c) ()) 0 (by rw [zero_add]) (W := W)
    (by rw [pay_send_own])
    (by rw [pay_recv_peer, landed_eq])

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  simp only [sumPts_eq, landPts_eq]
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fa, Hsum⟩, ⟨%fb, Hland⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  simp only [dev1_eq c, dev2_eq c]
  ihave Hsum := (Entails.of_eq (stga_eq c _ _).symm) $$ Hsum
  ihave Hland := (Entails.of_eq (stgb_eq c _).symm) $$ Hland
  ihave Hx := (Entails.of_eq (stgx_eq c _).symm) $$ Hx
  ihave Hout := (Entails.of_eq (stgo_eq c _).symm) $$ Hout
  have hmwB := mayWait_bar (F := F) c
  have hd2 : (⟨k0_dev2 c, k0_dev2_lt c⟩ : Dev nD) = peer c := dev2_eq c
  -- the signal, the two loads, the store and the barrier wait
  sl_exec
  -- the copy to the peer, lending the left half of the row
  ihave Hs := (sum_stored_split m c fa) $$ Hsum
  icases Hs with ⟨HsumL, HsumR⟩
  iapply (wp_send_row m K c _ (dev2_eq c) HatB_pay1_v (insert (SemLoc.reg barS, ()) W)) $$ [HsumL HatB_pay1 HO HtS HtVP]
  · isplitr; · iexact HIsnd
    isplitr; · iexact HIrcvP
    isplitl [HsumL]; · iexact HsumL
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- the receive wait, the loads, the store and the send wait
  sl_exec
  -- the two own cells close: their counters at zero are the core's again
  imod (Rounds.cell_close ER (meanRd m) (Set.mem_univ (K (c, 1))) (fun h => h) (R := 0 + 1) (duties_later m (sendCell c))) $$ [HatS] with HzS
  · isplitr; · iexact HIsnd
    iexact HatS
  imod (Rounds.cell_close ER (meanRd m) (Set.mem_univ (K (c, 2))) (fun h => h) (R := 0 + 1) (duties_later m (recvCell c))) $$ [HatV] with HzV
  · isplitr; · iexact HIrcv
    iexact HatV
  -- the lent half comes back to the half kept
  ihave Hsum := ((pointsTo_share (PosShare.mem_left_op_right fullShare)).2) $$ [HatS_pay1 HsumR]
  · isplitl [HatS_pay1] <;> iassumption
  ihave Hx := (Entails.of_eq (stgx_eq c _)) $$ Hx
  ihave Hout := (Entails.of_eq (out_stored_pts m c g1)) $$ Hout
  rw [wp_ret]; imodintro
  iapply Hk
  unfold bodyPost Φ₁ Dat.owesAt Pipeline.owesWithin sumPts landPts
  rw [show (dats m 0 c).owed t₀.succ = 0 from rfl]
  isplitl [Hsum HatV_pay1 HzS HzV]
  · isplitl [Hsum]; · iexact Hsum
    isplitl [HatV_pay1]; · iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hsum, Hland⟩, Ho, Hx, Hout⟩
  iapply (sound_body m K c fun _ => bodyPost m c)
  unfold bodyPre
  isplitr []
  · isplitl [Hg Hrest Hsum Hland]
    · isplitl [Hg]; · iexact Hg
      icases Hrest with ⟨H1, H2, H3⟩
      isplitl [H1]; · iexact H1
      isplitl [H2]; · iexact H2
      isplitl [H3]; · iexact H3
      isplitl [Hsum] <;> iassumption
    isplitl [Ho]; · iexact Ho
    isplitl [Hx] <;> iassumption
  · iintro H; iexact H

end Body

end Cert.KernelIdeal.Mean

end
-- ==== Proof.KernelIdealLaunch.lean ====
/-
  The column mean over a 2 × 2 mesh: the launch.

  The three cells of every device are allocated under one update at launch (the barrier semaphore is the runtime's,
  so its counter at zero comes with the launch's unscoped semaphores, the send and receive semaphores with the
  kernel's own), their tokens dealt across the first mesh axis: a device pays its peer's barrier unit and receive
  credit and its own send credit. The launch credit on a device's barrier cell is the one unit its peer owes it, on
  its receive cell the row's credit its peer owes it. The run's post names every window's array after the run.
-/
import proofs.«900568_g7700000000000569_dist_mean_ax0_xy_m1024_n512_v7x_xy2x2_f32_1_alg».proof.Proof.KernelIdealBody

noncomputable section

namespace Cert.KernelIdeal.Mean

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩
def protoToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf protoCells protoToks)

/-- The duty tokens of device `c`'s own cells. -/
def toks (c : Dev nD) : sProp 𝕄 := iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (meanRd m) (kcell (c, k)) 0)
    ∗ (bigSep Finset.univ fun k : Fin 3 => iprop(atPos ER (kcell (c, k)) 0 ∅ 0 ∗ reached ER (kcell (c, k)) 0)) ∗ toks c)
/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (meanRd m) protoCells protoToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (meanRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (meanRd m) (kcell (c, k)) 0)
      ⊢ (|={Set.univ}=> bigSep Finset.univ fun k => iprop(∃ κ : ℕ, cellInv ER (meanRd m) κ (kcell (c, k))) : sProp 𝕄) from by
        rw [← bigSep_sep']
        exact (bigSep_mono fun k _ => (Rounds.body_intro ER (meanRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (meanRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (meanRd m) (K ck) (kcell ck) : sProp 𝕄)) ⊢ cellInv ER (meanRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the axis: a barrier's token and a receive cell's token go to the peer. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (meanRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (meanRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (meanRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%fa, Ha⟩, ⟨%fb, Hb⟩⟩
  isplitl [Hs]; · iexact Hs
  isplitl [Ha]
  · iexists fa; rw [sumPts_eq]; iexact Ha
  · iexists fb; rw [landPts_eq]; iexact Hb

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Ha, Hb, HzS, HzV⟩
  isplitr; · iempintro
  isplitl [HzS HzV]
  · isplitl [HzS] <;> iassumption
  isplitl [Ha]
  · iexists (rowSum m c); rw [← sumPts_eq]; iexact Ha
  · iexists (landed m c); rw [← landPts_eq]; iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main terminates, and every final state has each device's windows' arrays at the contents the proof
    data name. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Mean.run_main' depends on axioms: [propext, Classical.choice, Quot.sound] -/
#guard_msgs in #print axioms run_main

/-- The argument array after the run holds what it held. -/
theorem finalA_x (c : Dev nD) : finalA m c (0 : Fin 2) = m (win0_0.arr.view.loc (c : Thread nD τ)) :=
  (dats (F := F) m 0 c).arrAt_in (0 : Fin 2) rfl _

end Cert.KernelIdeal.Mean

end
-- ==== Proof.MeanLaw.lean ====
/-
  The arithmetic of the column mean over the extended reals.

  A column of 2048 entries is the first 1024 followed by the last 1024, so its sum is the two halves' sums added
  in either order (addition of extended reals is commutative and associative, infinities included). Scaling by the
  float 2⁻¹¹, which is exactly 1/2048, is dividing by the float 2048. So the two half sums, added and scaled, are the
  reference's quotient `(0 + Σ all 2048) / 2048`, whichever half is taken first.
-/
import Idealize.ShloMosaic.PureOps.Ideal
import Idealize.ShloMosaic.PureOps.Ideal.Laws

noncomputable section

namespace Cert.MeanLaw

open Idealize.ShloMosaic

/-- The float pattern of `4.8828125e-4` denotes 1/2048 exactly. -/
theorem ofBits_inv2048 : Ideal.ofBits .f32 0x3A000000#32 = ((1 / 2048 : ℝ) : EReal) := by
  simp [Ideal.ofBits, Ideal.ieee, -EReal.coe_mul]; norm_num

/-- The float pattern of `2048.0` denotes 2048. -/
theorem ofBits_2048 : Ideal.ofBits .f32 0x45000000#32 = ((2048 : ℝ) : EReal) := by
  simp [Ideal.ofBits, Ideal.ieee, -EReal.coe_mul]; norm_num

/-- A sum over 2048 indices is the sum over the first 1024 plus the sum over the last 1024. -/
theorem sum_halves (f : Fin 2048 → EReal) :
    ∑ R : Fin 2048, f R
      = (∑ r : Fin 1024, f ⟨r.val, by have := r.isLt; omega⟩) + ∑ r : Fin 1024, f ⟨1024 + r.val, by have := r.isLt; omega⟩ :=
  Fin.sum_univ_add (a := 1024) (b := 1024) f

/-- The half that starts at row `1024 a` and the other half, added and scaled by 2⁻¹¹, are the whole column's sum
    over the zero initial value, divided by 2048. -/
theorem mean_law (f : Fin 2048 → EReal) (a : Fin 2) :
    ((∑ r : Fin 1024, f ⟨a.val * 1024 + r.val, by have := a.isLt; have := r.isLt; omega⟩)
        + ∑ r : Fin 1024, f ⟨(1 - a.val) * 1024 + r.val, by have := a.isLt; have := r.isLt; omega⟩)
        * Ideal.ofBits .f32 0x3A000000#32
      = Ideal.div (Ideal.ofBits .f32 0x00000000#32 + ∑ R : Fin 2048, f R) (Ideal.ofBits .f32 0x45000000#32) := by
  rw [ofBits_2048, ofBits_inv2048, Ideal.ofBits_zero_f32, zero_add, Ideal.div_coe (by norm_num), sum_halves f]
  congr 1
  match a with
  | ⟨0, _⟩ =>
    exact congrArg₂ (· + ·) (Finset.sum_congr rfl fun r _ => congrArg f (Fin.ext (by simp)))
      (Finset.sum_congr rfl fun r _ => congrArg f (Fin.ext (by simp)))
  | ⟨1, _⟩ =>
    rw [add_comm]
    exact congrArg₂ (· + ·) (Finset.sum_congr rfl fun r _ => congrArg f (Fin.ext (by simp)))
      (Finset.sum_congr rfl fun r _ => congrArg f (Fin.ext (by simp)))

/-- info: 'Cert.MeanLaw.mean_law' depends on axioms: [propext, Classical.choice, Quot.sound] -/
#guard_msgs in #print axioms mean_law

end Cert.MeanLaw

end
-- ==== Proof.MeanValue.lean ====
/-
  The column mean over a 2 × 2 mesh: the value.

  After the run device `c`'s result array holds its result row: the one point's write-back of the result's staging
  row, which covers the array. At the ideal instance the partial-sum row at column `j` is the sum over the block's
  1024 rows of column `j`, and the result row is the two rows' sum times 2⁻¹¹. Device `c` holds block
  `(c / 2, c % 2)` of the whole array and its peer block `(1 - c / 2, c % 2)`: the same 512 columns, the two halves of
  the 2048 rows. So the result at column `j` is the reference's mean at column `512 (c % 2) + j`: block `c % 2` of the
  reference's row, by the law of MeanLaw.
-/
import proofs.«900568_g7700000000000569_dist_mean_ax0_xy_m1024_n512_v7x_xy2x2_f32_1_alg».proof.Proof.KernelIdealLaunch
import proofs.«900568_g7700000000000569_dist_mean_ax0_xy_m1024_n512_v7x_xy2x2_f32_1_alg».proof.Proof.Gen.KernelIdeal.Points
import proofs.«900568_g7700000000000569_dist_mean_ax0_xy_m1024_n512_v7x_xy2x2_f32_1_alg».proof.Proof.MeanLaw
import proofs.«900568_g7700000000000569_dist_mean_ax0_xy_m1024_n512_v7x_xy2x2_f32_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.Layout

noncomputable section

namespace Cert.KernelIdeal.MeanValue

open Cert.KernelIdeal Cert.KernelIdeal.Gen Cert.KernelIdeal.Mean

open Idealize.ShloMosaic
open Idealize.ShloMosaic.TcCoe
open Idealize.SL.Sem
open Idealize.ShloMosaic.ValueIdx
open Idealize.ShloMosaic.Pipeline (Dat)

/-! ## The arrays after the run, at any instance -/

section Any
variable {F : FTy → Type} [FloatOps F] (m : (ℓ : Loc nD τ sig) → Buf (Elt F) ℓ)

/-- The one grid point's blocks start at offset 0 of their arrays. -/
theorem off0 (t : Fin cfg0.N) : (fun a => win0_0.index t a * win0_0.size a) = fun _ => 0 := by
  funext a; rw [fin_N t]; fin_cases a <;> rfl
theorem off1 (t : Fin cfg0.N) : (fun a => win0_1.index t a * win0_1.size a) = fun _ => 0 := by
  funext a; rw [fin_N t]; fin_cases a <;> rfl

/-- The staged block of the argument is the argument array. -/
theorem xstg_eq (c : Dev nD) : xstg m c = m ((c : Thread nD τ).loc main_arg0) := by
  unfold xstg
  exact Memref.read_access_unit_zero (Elt F) main_arg0 (off0 _) _ _

/-- The result window's block is the whole result array: read through it, an array is itself; -/
theorem blk_read (c : Dev nD) (t : Fin cfg0.N) (G : Buf (Elt F) ((cfg0.win (1 : Fin 2)).arr.view.loc (c : Thread nD τ))) :
    ((cfg0.win (1 : Fin 2)).blk t).view.read (Elt F) G = G :=
  Memref.read_access_unit_zero (Elt F) main_v1 (off1 t) _ _

/-- and every index of the array is in it. -/
theorem blk_mem (c : Dev nD) (t : Fin cfg0.N) (i : ((cfg0.win (1 : Fin 2)).arr.view.loc (c : Thread nD τ)).2.ty.Idx) :
    i ∈ ((cfg0.win (1 : Fin 2)).blk t).view.set := by
  have h : ((cfg0.win (1 : Fin 2)).blk t).view.set = ((cfg0.win (1 : Fin 2)).rect t).set := View.set_slice_whole main_v1 _
  rw [h]
  exact Idealize.ShloMosaic.View.mem_set_unit_zero (off1 t) _ i

/-- The result array after the run holds the result row: the one point writes its staging row back over all of it. -/
theorem finalA_out (c : Dev nD) : finalA m c (1 : Fin 2) = outAt m c :=
  (dats m 0 c).arrAt_eq_of_cover (1 : Fin 2) (outAt m c)
    (fun t _ => (blk_read c t (outAt m c)).symm)
    (fun i => ⟨t₀, flush0_1 t₀, blk_mem c t₀ i⟩)

/-- The result row as a function of the two devices' argument arrays. -/
theorem outAt_eq (c : Dev nD) :
    outAt m c = k0_pay1 (k0_pay2 (m ((c : Thread nD τ).loc main_arg0))) (k0_pay2 (m ((peer c : Thread nD τ).loc main_arg0))) := by
  unfold outAt rowSum; rw [xstg_eq, xstg_eq]

end Any

/-! ## The payloads at an index, at the ideal instance -/

/-- The partial sums: column `j` of the block added up over its 1024 rows. -/
theorem rowSum_apply (x : Vec Ideal S1024x512 .f32) (i : S1x512.Idx) :
    k0_pay2 (F := Ideal) x i = ∑ k : Fin 1024, x (ix2 k (i 1)) := by
  unfold k0_pay2
  refine (congrFun (shapeCast_self _ _) i).trans ?_
  refine (shapeCast_addUnit_apply ![512] _ _ i).trans ?_
  refine (Ideal.multiReduction_add_single _ _ _ _ _ _).trans ?_
  refine Finset.sum_congr rfl fun k _ => ?_
  refine (congrFun (shapeCast_self _ _) _).trans ?_
  exact congrArg x (funext fun a => Fin.ext (by match a with | ⟨0, _⟩ => rfl | ⟨1, _⟩ => rfl))

/-- The result row: the two rows' sum, scaled by the float 2⁻¹¹. -/
theorem out_apply (v w : Vec Ideal S1x512 .f32) (i : S1x512.Idx) :
    k0_pay1 (F := Ideal) v w i = (v i + w i) * Ideal.ofBits .f32 0x3A000000#32 := rfl

/-! ## The mesh's blocks -/

theorem mb_row (c : Dev nD) : ((Layout.meshBlock [2, 2] ![[0], [1]] c) (0 : Fin 2)).val = c.val / 2 := by revert c; decide
theorem mb_col (c : Dev nD) : ((Layout.meshBlock [2, 2] ![[0], [1]] c) (1 : Fin 2)).val = c.val % 2 := by revert c; decide
theorem mbo_col (c : Dev nD) : ((Layout.meshBlock [2, 2] ![[], [1]] c) (1 : Fin 2)).val = c.val % 2 := by revert c; decide
theorem peer_row (c : Dev nD) : (peer c).val / 2 = 1 - c.val / 2 := by revert c; decide
theorem peer_col (c : Dev nD) : (peer c).val % 2 = c.val % 2 := by revert c; decide

/-! ## The bridge -/

/-- Device `c`'s result row is block `c % 2` of the reference's mean row, when every device's argument is its
    block of the reference's argument. -/
theorem result_eq (X : (⟨Cert.ReferenceIdeal.S2048x1024, .f32⟩ : BufTy).Contents (Elt Ideal)) (xb : Dev nD → Vec Ideal S1024x512 .f32)
    (hx : ∀ c, xb c = Layout.blockN ⟨2, ![1024, 512]⟩ ⟨2, ![2048, 1024]⟩ (Layout.meshBlock [2, 2] ![[0], [1]] c) X) (c : Dev nD) :
    k0_pay1 (F := Ideal) (k0_pay2 (xb c)) (k0_pay2 (xb (peer c)))
      = Layout.blockN ⟨2, ![1, 512]⟩ ⟨2, ![1, 1024]⟩ (Layout.meshBlock [2, 2] ![[], [1]] c) (Cert.ReferenceIdeal.Read.val_main_v3 (F := Ideal) X) := by
  funext i
  rw [out_apply, rowSum_apply, rowSum_apply, hx c, hx (peer c), Layout.blockN_apply,
    Cert.ReferenceIdeal.Read.val_main_v3_apply, Cert.ReferenceIdeal.Read.val_main_v1_apply, Cert.ReferenceIdeal.Read.val_main_v0_apply,
    Cert.ReferenceIdeal.Read.val_main_v2_apply, Cert.ReferenceIdeal.Read.val_main_cst_0_apply, Cert.ReferenceIdeal.Read.val_main_cst_apply]
  simp only [Ideal.hostDivf_def, Ideal.ofBits_def, Layout.blockN_apply]
  refine Eq.trans ?_ (Cert.MeanLaw.mean_law (fun R => X (Cert.ReferenceIdeal.Read.idx_main_v0 (Cert.ReferenceIdeal.Read.idx_main_v1 _) R)) ⟨c.val / 2, by have h : c.val < 4 := c.isLt; omega⟩)
  refine congrArg (· * _) (congrArg₂ (· + ·) (Finset.sum_congr rfl fun k _ => congrArg X (funext fun a => Fin.ext ?_))
    (Finset.sum_congr rfl fun k _ => congrArg X (funext fun a => Fin.ext ?_)))
  · match a with
    | ⟨0, _⟩ => exact congrArg (· * 1024 + k.val) (mb_row c)
    | ⟨1, _⟩ => exact congrArg (· * 512 + (i 1).val) ((mb_col c).trans (mbo_col c).symm)
  · match a with
    | ⟨0, _⟩ => exact congrArg (· * 1024 + k.val) ((mb_row (peer c)).trans (peer_row c))
    | ⟨1, _⟩ => exact congrArg (· * 512 + (i 1).val) ((mb_col (peer c)).trans ((peer_col c).trans (mbo_col c).symm))

/-- info: 'Cert.KernelIdeal.MeanValue.result_eq' depends on axioms: [propext, Classical.choice, Quot.sound] -/
#guard_msgs in #print axioms result_eq

end Cert.KernelIdeal.MeanValue

end
-- ==== Proof.lean ====
/-
  The column mean of a 2048 × 1024 array on a 2 × 2 mesh against `jnp.mean` over axis 0 on one device.

  Each device adds up the 1024 rows of its 1024 × 512 block, exchanges the row of partial sums with the device that
  holds the other half of the same columns, and scales the two rows' sum by 2⁻¹¹ = 1/2048; the reference adds up all
  2048 rows of every column and divides by 2048. Over the extended reals the two are one function: a column's sum is
  its two halves' sums in either order, and the product with 1/2048 is the quotient by 2048 (MeanLaw).

  The three frames and the kernel's value come from one run per instance (KernelLaunch / KernelIdealLaunch): every
  fair interleaving of the four devices terminates, nothing faults, and each window's array ends at named contents —
  the argument unchanged, the result at the result row. The exchange is an entry handshake on the barrier semaphore
  and one addressed copy (KernelIdealProto has the schedule, KernelIdealBody one device's body). The reference's
  frame and value are its generated run and read-at-an-index lemmas. MeanValue joins the two through the mesh's
  blocks. No operation was rewritten by the ideal pass, so `preserves` has nothing to state.
-/
import proofs.«900568_g7700000000000569_dist_mean_ax0_xy_m1024_n512_v7x_xy2x2_f32_1_alg».proof.Defs
import proofs.«900568_g7700000000000569_dist_mean_ax0_xy_m1024_n512_v7x_xy2x2_f32_1_alg».proof.Proof.Gen.Kernel
import proofs.«900568_g7700000000000569_dist_mean_ax0_xy_m1024_n512_v7x_xy2x2_f32_1_alg».proof.Proof.Gen.KernelIdeal
import proofs.«900568_g7700000000000569_dist_mean_ax0_xy_m1024_n512_v7x_xy2x2_f32_1_alg».proof.Proof.Gen.ReferenceIdeal
import proofs.«900568_g7700000000000569_dist_mean_ax0_xy_m1024_n512_v7x_xy2x2_f32_1_alg».proof.Proof.Gen.Pre_finite_inputs_Kernel
import proofs.«900568_g7700000000000569_dist_mean_ax0_xy_m1024_n512_v7x_xy2x2_f32_1_alg».proof.Proof.Gen.Pre_finite_inputs_ReferenceIdeal
import proofs.«900568_g7700000000000569_dist_mean_ax0_xy_m1024_n512_v7x_xy2x2_f32_1_alg».proof.Proof.Gen.ReferenceIdeal.Run
import proofs.«900568_g7700000000000569_dist_mean_ax0_xy_m1024_n512_v7x_xy2x2_f32_1_alg».proof.Proof.Gen.ReferenceIdeal.Read
import proofs.«900568_g7700000000000569_dist_mean_ax0_xy_m1024_n512_v7x_xy2x2_f32_1_alg».proof.Proof.KernelLaunch
import proofs.«900568_g7700000000000569_dist_mean_ax0_xy_m1024_n512_v7x_xy2x2_f32_1_alg».proof.Proof.KernelIdealLaunch
import proofs.«900568_g7700000000000569_dist_mean_ax0_xy_m1024_n512_v7x_xy2x2_f32_1_alg».proof.Proof.MeanValue
import Idealize.ShloMosaic.Adequacy
import Idealize.ShloMosaic.Init

noncomputable section

namespace Cert.Proof

open Idealize.ShloMosaic Idealize.ShloMosaic.TcCoe Idealize.SL.Sem

/-- The word-level kernel runs and leaves its argument: the run's post at the argument's window. -/
theorem frame_k : Cert.frame_Kernel := fun m ρ _ =>
  (θ_run Cert.Kernel.defs _ _).mono (fun _ h c => (h c (0 : Fin 2)).trans (Cert.Kernel.Mean.finalA_x m c))
    (Cert.Kernel.Mean.run_main (F := Bits) m ρ)

/-- The idealized kernel runs and leaves its argument. -/
theorem frame_ki : Cert.frame_KernelIdeal := fun m ρ _ =>
  (θ_run Cert.KernelIdeal.defs _ _).mono (fun _ h c => (h c (0 : Fin 2)).trans (Cert.KernelIdeal.Mean.finalA_x m c))
    (Cert.KernelIdeal.Mean.run_main (F := Ideal) m ρ)

/-- The reference runs and leaves its argument: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each device's result is its block of the reference's mean row: the kernel's run names the result row, the
    reference's run its quotient, and the two agree column by column (MeanValue.result_eq). -/
theorem algebraic : Cert.algebraic_KernelIdeal_ReferenceIdeal := by
  intro m ρ m' ρ' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h c (0 : Fin 2)).trans (Cert.KernelIdeal.Mean.finalA_x m c)⟩)
      (Cert.KernelIdeal.Mean.run_main (F := Ideal) m ρ)
    refine (h c (1 : Fin 2)).trans ((Cert.KernelIdeal.MeanValue.finalA_out m c).trans ((Cert.KernelIdeal.MeanValue.outAt_eq m c).trans ?_))
    exact Cert.KernelIdeal.MeanValue.result_eq _ (fun c => m ((c.tc : Thread Cert.KernelIdeal.nD Cert.KernelIdeal.τ).loc Cert.KernelIdeal.main_arg0)) hagree c
  · exact (θ_run Cert.ReferenceIdeal.defs _ _).mono (fun _ h => ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
